-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S128 .f32) (main_arg16 : FVec F S2x128 .f32) (main_arg17 : FVec F S2 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S2x128 .f32 := Host.absf main_arg16
  let main_cst_28 : FVec F S_ .f32 := constant S_ .f32 0x7F800000#32
  let main_v75 : FVec F S2x128 .f32 := broadcastInDim S2x128 ![] bcast_S_S2x128 main_cst_28
  let main_v76 : IVec S2x128 1 := cmpf .olt main_v74 main_v75
  let main_c_29 : IVec S_ 1 := constantI S_ 1 1#1
  let main_v77 : IVec S_ 1 := (fun x v => Host.reduce IntOp.andi x v reducesTo_S2x128_S_d0_1 h_S_) main_v76 main_c_29
  let main_v78 : IVec S_ 1 := andi main_v73 main_v77
  let main_v79 : FVec F S2 .f32 := Host.absf main_arg17
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S128 .f32) (main_arg15 : FVec F S128 .f32) (main_arg16 : FVec F S2x128 .f32) (main_arg17 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S2x128 .f32) (main_arg17 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S2x128 .f32) (main_arg17 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S2x128 .f32) (main_arg17 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S128x2 : Shape := ⟨2, ![128, 2]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 91
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S2x128, .f32⟩
  | .hbm, ⟨17, _⟩ => ⟨S2, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S128x128, .f32⟩
  | .hbm, ⟨51, _⟩ => ⟨S128x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S128x128, .f32⟩
  | .hbm, ⟨78, _⟩ => ⟨S128x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S128x2, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x2, .f32⟩
  | .hbm, ⟨90, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x2, .f32⟩
  | .local _ .vmem, ⟨23, _⟩ => ⟨S1x2, .f32⟩
  | .local _ .vmem, ⟨24, _⟩ => ⟨S2000x2, .f32⟩
  | .local _ .vmem, ⟨25, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_c_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x2 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S_S128 : S_.BroadcastsInDim S128 (![] : Fin 0 → Fin S128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S2x128_S128x2_1_0 : S2x128.Transposes [1, 0] S128x2
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x2.size a ≤ S128x2.size a
  hwx1_8 : ∀ i : grid1.Coords, EltTy.bits .f32 = 32 ∨ (Rect.block (s := S128x2) S128x2.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x2.size a ≤ S1x2.size a
  hwx1_9 : ∀ i : grid1.Coords, EltTy.bits .f32 = 32 ∨ (Rect.block (s := S1x2) S1x2.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x2.size a ≤ S50000x2.size a
  hwx1_10 : ∀ i : grid1.Coords, EltTy.bits .f32 = 32 ∨ (Rect.block (s := S50000x2) S2000x2.size (cc1_transform_10 i) (hinb1_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v58) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v54) S128x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v59) S1x2.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v60) S2000x2.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S2x128, .f32⟩
  | .hbm, ⟨17, _⟩ => ⟨S2, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S128x128, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S_, .f32⟩
  | .hbm, ⟨86, _⟩ => ⟨S800000, .f32⟩
  | .hbm, ⟨87, _⟩ => ⟨S_, .f32⟩
  | .hbm, ⟨88, _⟩ => ⟨S50000, .f32⟩
  | .hbm, ⟨89, _⟩ => ⟨S800000x1, .i32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x128, .f32⟩
  | .hbm, ⟨96, _⟩ => ⟨S50000x128, .f32⟩
  | .hbm, ⟨97, _⟩ => ⟨S128x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S128x128, .f32⟩
  | .hbm, ⟨103, _⟩ => ⟨S50000x128, .f32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | .hbm, ⟨108, _⟩ => ⟨S_, .f32⟩
  | .hbm, ⟨109, _⟩ => ⟨S128, .f32⟩
  | .hbm, ⟨110, _⟩ => ⟨S128, .f32⟩
  | .hbm, ⟨111, _⟩ => ⟨S128, .f32⟩
  | .hbm, ⟨112, _⟩ => ⟨S128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | .hbm, ⟨119, _⟩ => ⟨S_, .f32⟩
  | .hbm, ⟨120, _⟩ => ⟨S50000x128, .f32⟩
  | .hbm, ⟨121, _⟩ => ⟨S50000x128, .f32⟩
  | .hbm, ⟨122, _⟩ => ⟨S128x2, .f32⟩
  | .hbm, ⟨123, _⟩ => ⟨S50000x2, .f32⟩
  | .hbm, ⟨124, _⟩ => ⟨S1x2, .f32⟩
  | .hbm, ⟨125, _⟩ => ⟨S50000x2, .f32⟩
  | .hbm, ⟨126, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call0_cst : Ref sig .tc := ⟨.hbm, 69, rfl⟩
abbrev main_call0_v0 : Ref sig .tc := ⟨.hbm, 70, rfl⟩
abbrev main_v44 : Ref sig .tc := ⟨.hbm, 71, rfl⟩
abbrev main_c_5 : Ref sig .tc := ⟨.hbm, 72, rfl⟩
abbrev main_v45 : Ref sig .tc := ⟨.hbm, 73, rfl⟩
abbrev main_v46 : Ref sig .tc := ⟨.hbm, 74, rfl⟩
abbrev main_c_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_11 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call1_cst : Ref sig .tc := ⟨.hbm, 119, rfl⟩
abbrev main_call1_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.Spec.lean ====
/-
  The mathematics both programs compute, index by index on the extended reals.

  One GraphSAGE layer on 50000 nodes with 128 features: for node `r` and output feature `q`,
    `max (((Σ_k agg[r,k]·wl[k,q] + Σ_k x[r,k]·wr[k,q] + bl[q]) − mean[q]) · sc[q] + bs[q]) 0`
  (the neighbour mean `agg` and the node's own features `x` through their two weight matrices, the bias, the
  evaluation-mode batch normalisation as an affine map, the rectifier), and the classifier head
    `Σ_k h[r,k]·wlin[k,q] + blin[q]`.
  The weight matrices are taken already transposed (contraction index first), the per-feature vectors as functions of the
  feature index.  The rectifier's zero is kept as the float word both programs print.
-/
import Idealize.ShloMosaic.PureOps.Ideal
import Idealize.ShloMosaic.Lib.ValueIdx

noncomputable section

namespace Cert.Sage

open Idealize.ShloMosaic Idealize.ShloMosaic.ValueIdx

/-- A matrix of extended reals indexed by a rank-2 shape's indices. -/
abbrev Mat (a b : ℕ) : Type := (⟨2, ![a, b]⟩ : Shape).Idx → EReal

/-- One layer: both products summed over the 128 input features, the bias added, then the affine normalisation and the
    rectifier, entry by entry. -/
def layer (agg x : Mat 50000 128) (wl wr : Mat 128 128) (bl mean sc bs : Fin 128 → EReal) : Mat 50000 128 :=
  fun i => max (((((∑ k : Fin 128, agg (ix2 (i 0) k) * wl (ix2 k (i 1))) + (∑ k : Fin 128, x (ix2 (i 0) k) * wr (ix2 k (i 1))))
      + bl (i 1)) - mean (i 1)) * sc (i 1) + bs (i 1)) (Ideal.ofBits .f32 0x00000000#32)

/-- The classifier head: the hidden features through the 128 × 2 matrix, the bias added. -/
def head (h : Mat 50000 128) (wlin : Mat 128 2) (blin : Fin 2 → EReal) : Mat 50000 2 :=
  fun i => (∑ k : Fin 128, h (ix2 (i 0) k) * wlin (ix2 k (i 1))) + blin (i 1)

theorem layer_apply (agg x : Mat 50000 128) (wl wr : Mat 128 128) (bl mean sc bs : Fin 128 → EReal) (r : Fin 50000) (q : Fin 128) :
    layer agg x wl wr bl mean sc bs (ix2 r q)
      = max (((((∑ k : Fin 128, agg (ix2 r k) * wl (ix2 k q)) + (∑ k : Fin 128, x (ix2 r k) * wr (ix2 k q)))
          + bl q) - mean q) * sc q + bs q) (Ideal.ofBits .f32 0x00000000#32) := rfl

theorem head_apply (h : Mat 50000 128) (wlin : Mat 128 2) (blin : Fin 2 → EReal) (r : Fin 50000) (q : Fin 2) :
    head h wlin blin (ix2 r q) = (∑ k : Fin 128, h (ix2 r k) * wlin (ix2 k q)) + blin q := rfl

end Cert.Sage

end
-- ==== Proof.Region0.lean ====
/- Region 0 (the first SAGE layer's pallas_call): the array its output window leaves after the last grid point is
   `Sage.layer` of the arrays the region finds at its entry, whatever those contents `V` are. -/
import proofs.«180387_j51161650430634_1_alg».proof.Proof.Gen.KernelIdeal.Frame
import proofs.«180387_j51161650430634_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry of the block -/

/-- The row operand of the product at output entry `i` and contraction index `q`: row `i 0`, -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- column the contraction index; -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the weight operand: row the contraction index, -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- column `i 1`. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] × [128,128] product into the zero accumulator, at entry `(p, q)`: the sum over the 128 shared
    features of row `p` of the left factor times column `q` of the right one. -/
theorem matmul_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The body's stored value at entry `(p, q)` of the block, from the eight loaded blocks: both products summed, the
    bias row added, the mean row subtracted, the scale row multiplied in, the shift row added, and the rectifier. -/
theorem pay_at (x0 x1 : Vec Ideal S2000x128 .f32) (x2 x3 : Vec Ideal S128x128 .f32) (b mu sc sh : Vec Ideal S1x128 .f32)
    (p : Fin 2000) (q : Fin 128) :
    k0_pay1 (F := Ideal) x0 x1 x2 x3 b mu sc sh (ix2 p q)
      = max (((((∑ k : Fin 128, x0 (ix2 p k) * x2 (ix2 k q)) + (∑ k : Fin 128, x1 (ix2 p k) * x3 (ix2 k q)))
          + b (ix2 0 q)) - mu (ix2 0 q)) * sc (ix2 0 q) + sh (ix2 0 q)) (Ideal.ofBits .f32 0x00000000#32) := by
  unfold k0_pay1
  simp only [shapeCast_self]
  rw [maximumf_apply, addf_apply, mulf_apply, subf_apply, addf_apply, addf_apply, matmul_at, matmul_at,
    broadcastTo_1b_ab_apply, broadcastTo_1b_ab_apply, broadcastTo_1b_ab_apply, broadcastTo_1b_ab_apply, broadcast_apply]
  simp only [truncf_apply]
  rfl

/-! ## From the blocks to the array -/

theorem off_zero : (![0, 0] : Fin 2 → Nat) = fun _ => 0 := funext fun a => by fin_cases a <;> rfl

/-- The block index maps over the 25 grid points: the three windows over the 50000 rows (both inputs and the output)
    take row block `t`, column block 0; the weight matrices and the four feature rows are whole, block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

variable (V : (c : Dev nD) → (b : Ref sig .tc) → Buf (Elt Ideal) ((c : Thread nD τ).loc b))

/-- The aggregated-neighbour block at point `t`, entry `(p, k)`, is the array's entry `(2000 t + p, k)`. -/
theorem agg_block (c : Dev nD) (t : Fin cfg0.N) (p : Fin 2000) (k : Fin 128) (r : Fin 50000) (hr : r.val = t.val * 2000 + p.val) :
    (iblk0 V c 0 t : Vec Ideal S2000x128 .f32) (ix2 p k) = (V c main_v24 : S50000x128.Idx → EReal) (ix2 r k) := by
  obtain ⟨e0, e1, -⟩ := block_indices t
  show (V c main_v24 : S50000x128.Idx → EReal) (((cfg0.win 0).blk t).view.emb (ix2 p k)) = _
  congr 1
  funext a
  apply Fin.ext
  match a with
  | ⟨0, _⟩ => show win0_0.index t (0 : Fin 2) * 2000 + 1 * p.val = r.val; omega
  | ⟨1, _⟩ => show win0_0.index t (1 : Fin 2) * 128 + 1 * k.val = k.val; omega

/-- The node-feature block at point `t`, entry `(p, k)`, is the array's entry `(2000 t + p, k)`. -/
theorem self_block (c : Dev nD) (t : Fin cfg0.N) (p : Fin 2000) (k : Fin 128) (r : Fin 50000) (hr : r.val = t.val * 2000 + p.val) :
    (iblk0 V c 1 t : Vec Ideal S2000x128 .f32) (ix2 p k) = (V c main_arg0 : S50000x128.Idx → EReal) (ix2 r k) := by
  obtain ⟨-, -, e0, e1, -⟩ := block_indices t
  show (V c main_arg0 : S50000x128.Idx → EReal) (((cfg0.win 1).blk t).view.emb (ix2 p k)) = _
  congr 1
  funext a
  apply Fin.ext
  match a with
  | ⟨0, _⟩ => show win0_1.index t (0 : Fin 2) * 2000 + 1 * p.val = r.val; omega
  | ⟨1, _⟩ => show win0_1.index t (1 : Fin 2) * 128 + 1 * k.val = k.val; omega

/-- The neighbour weight block at any point is the whole matrix. -/
theorem wl_block (c : Dev nD) (t : Fin cfg0.N) (k q : Fin 128) :
    (iblk0 V c 2 t : Vec Ideal S128x128 .f32) (ix2 k q) = (V c main_v25 : S128x128.Idx → EReal) (ix2 k q) := by
  obtain ⟨-, -, -, -, e0, e1, -⟩ := block_indices t
  show (V c main_v25 : S128x128.Idx → EReal) (((cfg0.win 2).blk t).view.emb (ix2 k q)) = _
  congr 1
  funext a
  apply Fin.ext
  match a with
  | ⟨0, _⟩ => show win0_2.index t (0 : Fin 2) * 128 + 1 * k.val = k.val; omega
  | ⟨1, _⟩ => show win0_2.index t (1 : Fin 2) * 128 + 1 * q.val = q.val; omega

/-- The self weight block at any point is the whole matrix. -/
theorem wr_block (c : Dev nD) (t : Fin cfg0.N) (k q : Fin 128) :
    (iblk0 V c 3 t : Vec Ideal S128x128 .f32) (ix2 k q) = (V c main_v26 : S128x128.Idx → EReal) (ix2 k q) := by
  obtain ⟨-, -, -, -, -, -, e0, e1, -⟩ := block_indices t
  show (V c main_v26 : S128x128.Idx → EReal) (((cfg0.win 3).blk t).view.emb (ix2 k q)) = _
  congr 1
  funext a
  apply Fin.ext
  match a with
  | ⟨0, _⟩ => show win0_3.index t (0 : Fin 2) * 128 + 1 * k.val = k.val; omega
  | ⟨1, _⟩ => show win0_3.index t (1 : Fin 2) * 128 + 1 * q.val = q.val; omega

/-- The bias row's block at any point is the whole row. -/
theorem bias_block (c : Dev nD) (t : Fin cfg0.N) (q : Fin 128) :
    (iblk0 V c 4 t : Vec Ideal S1x128 .f32) (ix2 0 q) = (V c main_v31 : S1x128.Idx → EReal) (ix2 0 q) := by
  obtain ⟨-, -, -, -, -, -, -, -, e0, e1, -⟩ := block_indices t
  show (V c main_v31 : S1x128.Idx → EReal) (((cfg0.win 4).blk t).view.emb (ix2 0 q)) = _
  congr 1
  funext a
  apply Fin.ext
  match a with
  | ⟨0, _⟩ => show win0_4.index t (0 : Fin 2) * 1 + 1 * 0 = 0; omega
  | ⟨1, _⟩ => show win0_4.index t (1 : Fin 2) * 128 + 1 * q.val = q.val; omega

/-- The scale row's block at any point is the whole row. -/
theorem scale_block (c : Dev nD) (t : Fin cfg0.N) (q : Fin 128) :
    (iblk0 V c 5 t : Vec Ideal S1x128 .f32) (ix2 0 q) = (V c main_v32 : S1x128.Idx → EReal) (ix2 0 q) := by
  obtain ⟨-, -, -, -, -, -, -, -, -, -, e0, e1, -⟩ := block_indices t
  show (V c main_v32 : S1x128.Idx → EReal) (((cfg0.win 5).blk t).view.emb (ix2 0 q)) = _
  congr 1
  funext a
  apply Fin.ext
  match a with
  | ⟨0, _⟩ => show win0_5.index t (0 : Fin 2) * 1 + 1 * 0 = 0; omega
  | ⟨1, _⟩ => show win0_5.index t (1 : Fin 2) * 128 + 1 * q.val = q.val; omega

/-- The shift row's block at any point is the whole row. -/
theorem shift_block (c : Dev nD) (t : Fin cfg0.N) (q : Fin 128) :
    (iblk0 V c 6 t : Vec Ideal S1x128 .f32) (ix2 0 q) = (V c main_v33 : S1x128.Idx → EReal) (ix2 0 q) := by
  obtain ⟨-, -, -, -, -, -, -, -, -, -, -, -, e0, e1, -⟩ := block_indices t
  show (V c main_v33 : S1x128.Idx → EReal) (((cfg0.win 6).blk t).view.emb (ix2 0 q)) = _
  congr 1
  funext a
  apply Fin.ext
  match a with
  | ⟨0, _⟩ => show win0_6.index t (0 : Fin 2) * 1 + 1 * 0 = 0; omega
  | ⟨1, _⟩ => show win0_6.index t (1 : Fin 2) * 128 + 1 * q.val = q.val; omega

/-- The mean row's block at any point is the whole row. -/
theorem mean_block (c : Dev nD) (t : Fin cfg0.N) (q : Fin 128) :
    (iblk0 V c 7 t : Vec Ideal S1x128 .f32) (ix2 0 q) = (V c main_v34 : S1x128.Idx → EReal) (ix2 0 q) := by
  obtain ⟨-, -, -, -, -, -, -, -, -, -, -, -, -, -, e0, e1, -⟩ := block_indices t
  show (V c main_v34 : S1x128.Idx → EReal) (((cfg0.win 7).blk t).view.emb (ix2 0 q)) = _
  congr 1
  funext a
  apply Fin.ext
  match a with
  | ⟨0, _⟩ => show win0_7.index t (0 : Fin 2) * 1 + 1 * 0 = 0; omega
  | ⟨1, _⟩ => show win0_7.index t (1 : Fin 2) * 128 + 1 * q.val = q.val; omega

/-- Entry `(p, q)` of the output block at point `t` sits at entry `(2000 t + p, q)` of the output array. -/
theorem out_entry (t : Fin cfg0.N) (p : Fin 2000) (q : Fin 128) (r : Fin 50000) (hr : r.val = t.val * 2000 + p.val) :
    ((cfg0.win 8).blk t).view.emb (ix2 p q) = (ix2 r q : S50000x128.Idx) := by
  obtain ⟨-, -, -, -, -, -, -, -, -, -, -, -, -, -, -, -, e0, e1⟩ := block_indices t
  funext a
  apply Fin.ext
  match a with
  | ⟨0, _⟩ => show win0_8.index t (0 : Fin 2) * 2000 + 1 * p.val = r.val; omega
  | ⟨1, _⟩ => show win0_8.index t (1 : Fin 2) * 128 + 1 * q.val = q.val; omega

/-- The layer function of the eight arrays the region finds. -/
abbrev layerOf (c : Dev nD) : S50000x128.Idx → EReal :=
  Sage.layer (V c main_v24) (V c main_arg0) (V c main_v25) (V c main_v26)
    (fun q => (V c main_v31 : S1x128.Idx → EReal) (ix2 0 q)) (fun q => (V c main_v34 : S1x128.Idx → EReal) (ix2 0 q))
    (fun q => (V c main_v32 : S1x128.Idx → EReal) (ix2 0 q)) (fun q => (V c main_v33 : S1x128.Idx → EReal) (ix2 0 q))

/-- What point `t` writes back is block `t` of the layer function. -/
theorem flushed_eq (c : Dev nD) (t : Fin cfg0.N) :
    (dat0 V c).flushed 8 t = ((cfg0.win 8).blk t).view.read (Elt Ideal) (layerOf V c) := by
  show (cfg0.win 8).cut (grid0.coords t) ((dat0 V c).after 8 t) = _
  rw [after0_8]
  unfold out0_8
  rw [View.canon_unit_zero off_zero]
  simp only [View.ld_unit_zero (S := S2000x128) off_zero, View.ld_unit_zero (S := S128x128) off_zero,
    View.ld_unit_zero (S := S1x128) off_zero]
  funext j
  obtain ⟨p, q, rfl⟩ : ∃ (p : Fin 2000) (q : Fin 128), j = ix2 p q := ⟨j 0, j 1, eq_ix2 j⟩
  have hN : cfg0.N = 25 := N_0
  have ht : t.val < 25 := hN ▸ t.isLt
  have hp : p.val < 2000 := p.isLt
  have hr : (⟨t.val * 2000 + p.val, by omega⟩ : Fin 50000).val = t.val * 2000 + p.val := rfl
  show k0_pay1 (F := Ideal) (iblk0 V c 0 t) (iblk0 V c 1 t) (iblk0 V c 2 t) (iblk0 V c 3 t) (iblk0 V c 4 t) (iblk0 V c 7 t)
      (iblk0 V c 5 t) (iblk0 V c 6 t) (ix2 p q) = layerOf V c (((cfg0.win 8).blk t).view.emb (ix2 p q))
  refine (pay_at _ _ _ _ _ _ _ _ p q).trans ?_
  rw [out_entry t p q _ hr]
  unfold layerOf
  rw [Sage.layer_apply]
  simp only [agg_block V c t p _ _ hr, self_block V c t p _ _ hr, wl_block V c t, wr_block V c t, bias_block V c t,
    mean_block V c t, scale_block V c t, shift_block V c t]

/-- An entry of the output array is in point `t`'s block iff each coordinate is in the block's range. -/
theorem mem_block (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v35).slice (win0_8.rect t)).set ↔ _
  rw [View.set_slice_whole, Rect.mem_set_unit]
  exact Iff.rfl

/-- Every entry of the output array is in some point's block: row `r` in the block of point `r / 2000`. -/
theorem covered (i : S50000x128.Idx) :
    ∃ t : Fin cfg0.N, (cfg0.win 8).flush t = true ∧ i ∈ ((cfg0.win 8).blk t).view.set := by
  have hN : cfg0.N = 25 := N_0
  have hi0 : (i 0).val < 50000 := (i 0).isLt
  have hi1 : (i 1).val < 128 := (i 1).isLt
  have hlt : (i 0).val / 2000 < cfg0.N := by rw [hN]; omega
  refine ⟨⟨(i 0).val / 2000, hlt⟩, flush0_8 _, ?_⟩
  obtain ⟨-, -, -, -, -, -, -, -, -, -, -, -, -, -, -, -, e0, e1⟩ := block_indices ⟨(i 0).val / 2000, hlt⟩
  have e0' : win0_8.index ⟨(i 0).val / 2000, hlt⟩ (0 : Fin 2) = (i 0).val / 2000 := e0
  rw [mem_block]
  intro a
  match a with
  | ⟨0, _⟩ => show win0_8.index ⟨(i 0).val / 2000, hlt⟩ (0 : Fin 2) * 2000 ≤ (i 0).val ∧ (i 0).val < win0_8.index ⟨(i 0).val / 2000, hlt⟩ (0 : Fin 2) * 2000 + 2000; omega
  | ⟨1, _⟩ => show win0_8.index ⟨(i 0).val / 2000, hlt⟩ (1 : Fin 2) * 128 ≤ (i 1).val ∧ (i 1).val < win0_8.index ⟨(i 0).val / 2000, hlt⟩ (1 : Fin 2) * 128 + 128; omega

/-- After the 25 grid points (2000 rows each) the output array of region 0 is the layer function of the eight input
    arrays as the region found them. -/
theorem arrAt_eq (c : Dev nD) :
    (dat0 V c).arrAt 8 cfg0.N
      = Sage.layer (V c main_v24) (V c main_arg0) (V c main_v25) (V c main_v26)
          (fun q => (V c main_v31 : S1x128.Idx → EReal) (ix2 0 q)) (fun q => (V c main_v34 : S1x128.Idx → EReal) (ix2 0 q))
          (fun q => (V c main_v32 : S1x128.Idx → EReal) (ix2 0 q)) (fun q => (V c main_v33 : S1x128.Idx → EReal) (ix2 0 q)) :=
  (dat0 V c).arrAt_eq_of_cover 8 (layerOf V c) (fun t _ => flushed_eq V c t) covered

end Cert.KernelIdeal.Region0

end
-- ==== Proof.Region1.lean ====
/- Region 1 (the second SAGE layer fused with the classifier head): the array its output window leaves after the last
   grid point is `Sage.head` of `Sage.layer` of the arrays the region finds at its entry, whatever those contents `V` are.

   The two products of the body are read at an index as sums over the 128 shared coordinates; the layer's block and the
   head's block are then read entry by entry; each window's block at a grid point is rows of its array (2000 rows per
   point for the two node-feature arrays and the output, the whole array for the weights and the per-feature rows);
   so what a point writes back is its 2000 rows of the result, and the 25 blocks tile the 50000 rows. -/
import proofs.«180387_j51161650430634_1_alg».proof.Proof.Gen.KernelIdeal.Frame
import proofs.«180387_j51161650430634_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem zero_off : (![0, 0] : Fin 2 → Nat) = fun _ => 0 := funext fun a => by fin_cases a <;> rfl

/-! ## The two products read at an index -/

/-- The operand indices of a product with the 128 × 128 matrix, axis by axis: the left operand's row is the result's row,
    the right operand's column the result's column, and the other two axes are the shared coordinate. -/
theorem lhsW_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsW_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsW_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsW_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 × 128 block times a 128 × 128 matrix into the zero block: entry (p, q) is the sum over the 128 shared
    coordinates of the products. -/
theorem matmulW_apply (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

/-- The same for the product with the 128 × 2 matrix. -/
theorem lhsH_0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem lhsH_1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
theorem rhsH_0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
theorem rhsH_1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- A 2000 × 128 block times the 128 × 2 matrix into the zero block: entry (p, q) is the sum over the 128 shared
    coordinates of the products. -/
theorem matmulH_apply (A : FVec Ideal S2000x128 .bf16) (B : FVec Ideal S128x2 .bf16) (p : Fin 2000) (q : Fin 2) :
    matmul dot_S2000x128_S128x2_S2000x2_1_0_0_1_n_n none A B (constant (F := Ideal) S2000x2 .f32 0x00000000#32) (ix2 p q)
      = ∑ k : Fin 128, A (ix2 p k) * B (ix2 k q) := by
  show FloatOps.matmul dot_S2000x128_S128x2_S2000x2_1_0_0_1_n_n none A B (constant (F := Ideal) S2000x2 .f32 0x00000000#32) (ix2 p q) = _
  rw [Ideal.matmul_constant_zero_apply, ← Equiv.sum_comp (contrEquiv1 dot_S2000x128_S128x2_S2000x2_1_0_0_1_n_n 128 rfl rfl).symm]
  refine Finset.sum_congr rfl fun k _ => ?_
  have hk := contrEquiv1_symm_val dot_S2000x128_S128x2_S2000x2_1_0_0_1_n_n 128 rfl rfl k
  have el : dot_S2000x128_S128x2_S2000x2_1_0_0_1_n_n.lhsIdx (ix2 p q) ((contrEquiv1 dot_S2000x128_S128x2_S2000x2_1_0_0_1_n_n 128 rfl rfl).symm k) = ix2 p k := funext fun a => Fin.ext (by
    match a with
    | ⟨0, _⟩ => exact lhsH_0 _ _
    | ⟨1, _⟩ => exact (lhsH_1 _ _).trans hk)
  have er : dot_S2000x128_S128x2_S2000x2_1_0_0_1_n_n.rhsIdx (ix2 p q) ((contrEquiv1 dot_S2000x128_S128x2_S2000x2_1_0_0_1_n_n 128 rfl rfl).symm k) = ix2 k q := funext fun a => Fin.ext (by
    match a with
    | ⟨0, _⟩ => exact (rhsH_0 _ _).trans hk
    | ⟨1, _⟩ => exact rhsH_1 _ _)
  rw [el, er]

/-! ## The payloads read at an index -/

/-- The head's matrix passes through its format changes unchanged. -/
theorem pay3_eq (x8 : Vec Ideal S128x2 .f32) : k1_pay3 (F := Ideal) x8 = x8 := by
  unfold k1_pay3
  simp only [shapeCast_self]
  rfl

/-- The layer's block at row `p`, feature `k`: both products, the bias, the affine normalisation, the rectifier. -/
theorem pay2_apply (x0 x1 : Vec Ideal S2000x128 .f32) (x2 x3 : Vec Ideal S128x128 .f32) (b m s h : Vec Ideal S1x128 .f32)
    (p : Fin 2000) (k : Fin 128) :
    k1_pay2 (F := Ideal) x0 x1 x2 x3 b m s h (ix2 p k)
      = max (((((∑ j : Fin 128, (x0 (ix2 p j) : EReal) * x2 (ix2 j k)) + (∑ j : Fin 128, (x1 (ix2 p j) : EReal) * x3 (ix2 j k)))
          + b (ix2 0 k)) - m (ix2 0 k)) * s (ix2 0 k) + h (ix2 0 k)) (Ideal.ofBits .f32 0x00000000#32) := by
  unfold k1_pay2
  simp only [shapeCast_self]
  rw [truncf_apply, maximumf_apply, broadcast_apply, addf_apply, mulf_apply, subf_apply, addf_apply, addf_apply,
    matmulW_apply, matmulW_apply]
  simp only [broadcastTo_1b_ab_apply, truncf_apply]
  rfl

/-- The head's block at row `p`, class `q`: the hidden block through the matrix, the bias row added. -/
theorem pay1_apply (hB : FVec Ideal S2000x128 .bf16) (w : FVec Ideal S128x2 .bf16) (b : Vec Ideal S1x2 .f32)
    (p : Fin 2000) (q : Fin 2) :
    k1_pay1 (F := Ideal) hB w (constant (F := Ideal) S2000x2 .f32 0x00000000#32) b (ix2 p q)
      = (∑ k : Fin 128, (hB (ix2 p k) : EReal) * w (ix2 k q)) + b (ix2 0 q) := by
  unfold k1_pay1
  simp only [shapeCast_self]
  rw [addf_apply, matmulH_apply, broadcastTo_1b_ab_apply]

/-! ## The blocks the windows read -/

/-- Row `p` of the block at grid point `t` is row `2000 t + p` of the array. -/
def row (t : Fin cfg1.N) (p : Fin 2000) : Fin 50000 :=
  ⟨t.val * 2000 + p.val, by have ht : t.val < 25 := lt_of_lt_of_eq t.isLt N_1; have hp := p.isLt; omega⟩

/-- The index maps over the 25 points: the row-blocked windows sit at block (t, 0), the whole-array windows at (0, 0). -/
theorem index_0 : ∀ t : Fin cfg1.N, win1_0.index t (0 : Fin 2) = t.val ∧ win1_0.index t (1 : Fin 2) = 0 :=
  (by decide +kernel : ∀ t : Fin grid1.N, _)
theorem index_1 : ∀ t : Fin cfg1.N, win1_1.index t (0 : Fin 2) = t.val ∧ win1_1.index t (1 : Fin 2) = 0 :=
  (by decide +kernel : ∀ t : Fin grid1.N, _)
theorem index_2 : ∀ t : Fin cfg1.N, win1_2.index t (0 : Fin 2) = 0 ∧ win1_2.index t (1 : Fin 2) = 0 :=
  (by decide +kernel : ∀ t : Fin grid1.N, _)
theorem index_3 : ∀ t : Fin cfg1.N, win1_3.index t (0 : Fin 2) = 0 ∧ win1_3.index t (1 : Fin 2) = 0 :=
  (by decide +kernel : ∀ t : Fin grid1.N, _)
theorem index_4 : ∀ t : Fin cfg1.N, win1_4.index t (0 : Fin 2) = 0 ∧ win1_4.index t (1 : Fin 2) = 0 :=
  (by decide +kernel : ∀ t : Fin grid1.N, _)
theorem index_5 : ∀ t : Fin cfg1.N, win1_5.index t (0 : Fin 2) = 0 ∧ win1_5.index t (1 : Fin 2) = 0 :=
  (by decide +kernel : ∀ t : Fin grid1.N, _)
theorem index_6 : ∀ t : Fin cfg1.N, win1_6.index t (0 : Fin 2) = 0 ∧ win1_6.index t (1 : Fin 2) = 0 :=
  (by decide +kernel : ∀ t : Fin grid1.N, _)
theorem index_7 : ∀ t : Fin cfg1.N, win1_7.index t (0 : Fin 2) = 0 ∧ win1_7.index t (1 : Fin 2) = 0 :=
  (by decide +kernel : ∀ t : Fin grid1.N, _)
theorem index_8 : ∀ t : Fin cfg1.N, win1_8.index t (0 : Fin 2) = 0 ∧ win1_8.index t (1 : Fin 2) = 0 :=
  (by decide +kernel : ∀ t : Fin grid1.N, _)
theorem index_9 : ∀ t : Fin cfg1.N, win1_9.index t (0 : Fin 2) = 0 ∧ win1_9.index t (1 : Fin 2) = 0 :=
  (by decide +kernel : ∀ t : Fin grid1.N, _)
theorem index_10 : ∀ t : Fin cfg1.N, win1_10.index t (0 : Fin 2) = t.val ∧ win1_10.index t (1 : Fin 2) = 0 :=
  (by decide +kernel : ∀ t : Fin grid1.N, _)

/-- Each window's block at a point, read at a coordinate pair, is the region-entry array at the matching index. -/
theorem iblk_0_apply (c : Dev nD) (t : Fin cfg1.N) (p : Fin 2000) (k : Fin 128) :
    (iblk1 V c 0 t : S2000x128.Idx → EReal) (ix2 p k) = (V c main_v47 : S50000x128.Idx → EReal) (ix2 (row t p) k) := by
  obtain ⟨e0, e1⟩ := index_0 t
  show (V c main_v47 : S50000x128.Idx → EReal) (((cfg1.win 0).blk t).view.emb (ix2 p k)) = _
  congr 1
  funext a; apply Fin.ext
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega
theorem iblk_1_apply (c : Dev nD) (t : Fin cfg1.N) (p : Fin 2000) (k : Fin 128) :
    (iblk1 V c 1 t : S2000x128.Idx → EReal) (ix2 p k) = (V c main_v35 : S50000x128.Idx → EReal) (ix2 (row t p) k) := by
  obtain ⟨e0, e1⟩ := index_1 t
  show (V c main_v35 : S50000x128.Idx → EReal) (((cfg1.win 1).blk t).view.emb (ix2 p k)) = _
  congr 1
  funext a; apply Fin.ext
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega
theorem iblk_2_apply (c : Dev nD) (t : Fin cfg1.N) (p : Fin 128) (k : Fin 128) :
    (iblk1 V c 2 t : S128x128.Idx → EReal) (ix2 p k) = (V c main_v48 : S128x128.Idx → EReal) (ix2 p k) := by
  obtain ⟨e0, e1⟩ := index_2 t
  show (V c main_v48 : S128x128.Idx → EReal) (((cfg1.win 2).blk t).view.emb (ix2 p k)) = _
  congr 1
  funext a; apply Fin.ext
  match a with
  | ⟨0, _⟩ => show win1_2.index t (0 : Fin 2) * 128 + 1 * p.val = p.val; rw [e0]; omega
  | ⟨1, _⟩ => show win1_2.index t (1 : Fin 2) * 128 + 1 * k.val = k.val; rw [e1]; omega
theorem iblk_3_apply (c : Dev nD) (t : Fin cfg1.N) (p : Fin 128) (k : Fin 128) :
    (iblk1 V c 3 t : S128x128.Idx → EReal) (ix2 p k) = (V c main_v49 : S128x128.Idx → EReal) (ix2 p k) := by
  obtain ⟨e0, e1⟩ := index_3 t
  show (V c main_v49 : S128x128.Idx → EReal) (((cfg1.win 3).blk t).view.emb (ix2 p k)) = _
  congr 1
  funext a; apply Fin.ext
  match a with
  | ⟨0, _⟩ => show win1_3.index t (0 : Fin 2) * 128 + 1 * p.val = p.val; rw [e0]; omega
  | ⟨1, _⟩ => show win1_3.index t (1 : Fin 2) * 128 + 1 * k.val = k.val; rw [e1]; omega
theorem iblk_4_apply (c : Dev nD) (t : Fin cfg1.N) (p : Fin 1) (k : Fin 128) :
    (iblk1 V c 4 t : S1x128.Idx → EReal) (ix2 p k) = (V c main_v55 : S1x128.Idx → EReal) (ix2 p k) := by
  obtain ⟨e0, e1⟩ := index_4 t
  show (V c main_v55 : S1x128.Idx → EReal) (((cfg1.win 4).blk t).view.emb (ix2 p k)) = _
  congr 1
  funext a; apply Fin.ext
  match a with
  | ⟨0, _⟩ => show win1_4.index t (0 : Fin 2) * 1 + 1 * p.val = p.val; rw [e0]; omega
  | ⟨1, _⟩ => show win1_4.index t (1 : Fin 2) * 128 + 1 * k.val = k.val; rw [e1]; omega
theorem iblk_5_apply (c : Dev nD) (t : Fin cfg1.N) (p : Fin 1) (k : Fin 128) :
    (iblk1 V c 5 t : S1x128.Idx → EReal) (ix2 p k) = (V c main_v56 : S1x128.Idx → EReal) (ix2 p k) := by
  obtain ⟨e0, e1⟩ := index_5 t
  show (V c main_v56 : S1x128.Idx → EReal) (((cfg1.win 5).blk t).view.emb (ix2 p k)) = _
  congr 1
  funext a; apply Fin.ext
  match a with
  | ⟨0, _⟩ => show win1_5.index t (0 : Fin 2) * 1 + 1 * p.val = p.val; rw [e0]; omega
  | ⟨1, _⟩ => show win1_5.index t (1 : Fin 2) * 128 + 1 * k.val = k.val; rw [e1]; omega
theorem iblk_6_apply (c : Dev nD) (t : Fin cfg1.N) (p : Fin 1) (k : Fin 128) :
    (iblk1 V c 6 t : S1x128.Idx → EReal) (ix2 p k) = (V c main_v57 : S1x128.Idx → EReal) (ix2 p k) := by
  obtain ⟨e0, e1⟩ := index_6 t
  show (V c main_v57 : S1x128.Idx → EReal) (((cfg1.win 6).blk t).view.emb (ix2 p k)) = _
  congr 1
  funext a; apply Fin.ext
  match a with
  | ⟨0, _⟩ => show win1_6.index t (0 : Fin 2) * 1 + 1 * p.val = p.val; rw [e0]; omega
  | ⟨1, _⟩ => show win1_6.index t (1 : Fin 2) * 128 + 1 * k.val = k.val; rw [e1]; omega
theorem iblk_7_apply (c : Dev nD) (t : Fin cfg1.N) (p : Fin 1) (k : Fin 128) :
    (iblk1 V c 7 t : S1x128.Idx → EReal) (ix2 p k) = (V c main_v58 : S1x128.Idx → EReal) (ix2 p k) := by
  obtain ⟨e0, e1⟩ := index_7 t
  show (V c main_v58 : S1x128.Idx → EReal) (((cfg1.win 7).blk t).view.emb (ix2 p k)) = _
  congr 1
  funext a; apply Fin.ext
  match a with
  | ⟨0, _⟩ => show win1_7.index t (0 : Fin 2) * 1 + 1 * p.val = p.val; rw [e0]; omega
  | ⟨1, _⟩ => show win1_7.index t (1 : Fin 2) * 128 + 1 * k.val = k.val; rw [e1]; omega
theorem iblk_8_apply (c : Dev nD) (t : Fin cfg1.N) (p : Fin 128) (k : Fin 2) :
    (iblk1 V c 8 t : S128x2.Idx → EReal) (ix2 p k) = (V c main_v54 : S128x2.Idx → EReal) (ix2 p k) := by
  obtain ⟨e0, e1⟩ := index_8 t
  show (V c main_v54 : S128x2.Idx → EReal) (((cfg1.win 8).blk t).view.emb (ix2 p k)) = _
  congr 1
  funext a; apply Fin.ext
  match a with
  | ⟨0, _⟩ => show win1_8.index t (0 : Fin 2) * 128 + 1 * p.val = p.val; rw [e0]; omega
  | ⟨1, _⟩ => show win1_8.index t (1 : Fin 2) * 2 + 1 * k.val = k.val; rw [e1]; omega
theorem iblk_9_apply (c : Dev nD) (t : Fin cfg1.N) (p : Fin 1) (k : Fin 2) :
    (iblk1 V c 9 t : S1x2.Idx → EReal) (ix2 p k) = (V c main_v59 : S1x2.Idx → EReal) (ix2 p k) := by
  obtain ⟨e0, e1⟩ := index_9 t
  show (V c main_v59 : S1x2.Idx → EReal) (((cfg1.win 9).blk t).view.emb (ix2 p k)) = _
  congr 1
  funext a; apply Fin.ext
  match a with
  | ⟨0, _⟩ => show win1_9.index t (0 : Fin 2) * 1 + 1 * p.val = p.val; rw [e0]; omega
  | ⟨1, _⟩ => show win1_9.index t (1 : Fin 2) * 2 + 1 * k.val = k.val; rw [e1]; omega

/-! ## From the blocks to the array -/

/-- What the output array ends holding: the head of the layer of the region-entry arrays. -/
abbrev result (c : Dev nD) : Sage.Mat 50000 2 :=
  Sage.head (Sage.layer (V c main_v47) (V c main_v35) (V c main_v48) (V c main_v49)
      (fun q => (V c main_v55 : S1x128.Idx → EReal) (ix2 0 q)) (fun q => (V c main_v58 : S1x128.Idx → EReal) (ix2 0 q))
      (fun q => (V c main_v56 : S1x128.Idx → EReal) (ix2 0 q)) (fun q => (V c main_v57 : S1x128.Idx → EReal) (ix2 0 q)))
    (V c main_v54) (fun q => (V c main_v59 : S1x2.Idx → EReal) (ix2 0 q))

/-- The kernel's stored value at row `p`, class `q` of point `t`'s block is `result` at row `2000 t + p`, class `q`. -/
theorem point_eq (c : Dev nD) (t : Fin cfg1.N) (p : Fin 2000) (q : Fin 2) :
    k1_pay1 (F := Ideal) (k1_pay2 (iblk1 V c 0 t) (iblk1 V c 1 t) (iblk1 V c 2 t) (iblk1 V c 3 t) (iblk1 V c 4 t) (iblk1 V c 7 t) (iblk1 V c 5 t) (iblk1 V c 6 t))
        (k1_pay3 (iblk1 V c 8 t)) (constant (F := Ideal) S2000x2 .f32 0x00000000#32) (iblk1 V c 9 t) (ix2 p q)
      = result V c (ix2 (row t p) q) := by
  rw [pay1_apply, pay3_eq, iblk_9_apply]
  show _ = Sage.head _ _ _ (ix2 (row t p) q)
  rw [Sage.head_apply]
  refine congrArg₂ (· + ·) (Finset.sum_congr rfl fun k _ => ?_) rfl
  rw [pay2_apply, Sage.layer_apply, iblk_8_apply]
  simp only [iblk_0_apply, iblk_1_apply, iblk_2_apply, iblk_3_apply, iblk_4_apply, iblk_5_apply, iblk_6_apply, iblk_7_apply]

/-- What grid point `t` writes back is rows `2000 t … 2000 t + 1999` of `result`. -/
theorem flushed_eq (c : Dev nD) (t : Fin cfg1.N) :
    (dat1 V c).flushed 10 t = ((cfg1.win 10).blk t).view.read (Elt Ideal) (result V c) := by
  show (cfg1.win 10).cut (grid1.coords t) ((dat1 V c).after 10 t) = _
  rw [after1_10]
  unfold out1_10
  rw [View.canon_unit_zero zero_off]
  simp only [View.ld_unit_zero (S := S2000x128) zero_off, View.ld_unit_zero (S := S128x128) zero_off,
    View.ld_unit_zero (S := S1x128) zero_off, View.ld_unit_zero (S := S128x2) zero_off, View.ld_unit_zero (S := S1x2) zero_off]
  obtain ⟨e0, e1⟩ := index_10 t
  funext j
  obtain ⟨p, q, rfl⟩ : ∃ (p : Fin 2000) (q : Fin 2), j = ix2 p q := ⟨j 0, j 1, eq_ix2 j⟩
  have hemb : ((cfg1.win 10).blk t).view.emb (ix2 p q) = (ix2 (row t p) q : S50000x2.Idx) := by
    funext a; apply Fin.ext
    match a with
    | ⟨0, _⟩ => show win1_10.index t (0 : Fin 2) * 2000 + 1 * p.val = t.val * 2000 + p.val; rw [e0]; omega
    | ⟨1, _⟩ => show win1_10.index t (1 : Fin 2) * 2 + 1 * q.val = q.val; rw [e1]; omega
  show k1_pay1 (F := Ideal) (k1_pay2 (iblk1 V c 0 t) (iblk1 V c 1 t) (iblk1 V c 2 t) (iblk1 V c 3 t) (iblk1 V c 4 t) (iblk1 V c 7 t) (iblk1 V c 5 t) (iblk1 V c 6 t))
      (k1_pay3 (iblk1 V c 8 t)) (constant (F := Ideal) S2000x2 .f32 0x00000000#32) (iblk1 V c 9 t) (ix2 p q)
    = result V c (((cfg1.win 10).blk t).view.emb (ix2 p q))
  rw [hemb]
  exact point_eq V c t p q

/-- An index of the output array is in point `t`'s block iff each coordinate is in the block's range on its axis. -/
theorem mem_blk (t : Fin cfg1.N) (i : S50000x2.Idx) :
    i ∈ ((cfg1.win 10).blk t).view.set ↔ ∀ a : Fin 2, win1_10.index t a * S2000x2.size a ≤ (i a).val ∧ (i a).val < win1_10.index t a * S2000x2.size a + S2000x2.size a := by
  show i ∈ ((View.whole main_v60).slice (win1_10.rect t)).set ↔ _
  rw [View.set_slice_whole, Rect.mem_set_unit]
  exact Iff.rfl

/-- The 25 blocks of 2000 rows tile the 50000 rows: row `r` lies in the block of point `r / 2000`. -/
theorem cover (i : S50000x2.Idx) : ∃ t : Fin cfg1.N, (cfg1.win 10).flush t = true ∧ i ∈ ((cfg1.win 10).blk t).view.set := by
  have hi0 : (i 0).val < 50000 := (i 0).isLt
  have hi1 : (i 1).val < 2 := (i 1).isLt
  have hN : grid1.N = 25 := N_1
  have hlt : (i 0).val / 2000 < cfg1.N := by show (i 0).val / 2000 < grid1.N; rw [hN]; omega
  obtain ⟨e0, e1⟩ := index_10 ⟨(i 0).val / 2000, hlt⟩
  refine ⟨⟨(i 0).val / 2000, hlt⟩, flush1_10 _, ?_⟩
  rw [mem_blk]
  intro a
  match a with
  | ⟨0, _⟩ =>
    show win1_10.index ⟨(i 0).val / 2000, hlt⟩ (0 : Fin 2) * 2000 ≤ (i 0).val ∧ (i 0).val < win1_10.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_10.index ⟨(i 0).val / 2000, hlt⟩ (1 : Fin 2) * 2 ≤ (i 1).val ∧ (i 1).val < win1_10.index ⟨(i 0).val / 2000, hlt⟩ (1 : Fin 2) * 2 + 2
    rw [e1]; omega

/-- After the 25 grid points (2000 rows each) the output array of region 1 is the head applied to the layer function of
    the ten input arrays as the region found them. -/
theorem arrAt_eq (c : Dev nD) :
    (dat1 V c).arrAt 10 cfg1.N
      = Sage.head (Sage.layer (V c main_v47) (V c main_v35) (V c main_v48) (V c main_v49)
          (fun q => (V c main_v55 : S1x128.Idx → EReal) (ix2 0 q)) (fun q => (V c main_v58 : S1x128.Idx → EReal) (ix2 0 q))
          (fun q => (V c main_v56 : S1x128.Idx → EReal) (ix2 0 q)) (fun q => (V c main_v57 : S1x128.Idx → EReal) (ix2 0 q)))
          (V c main_v54) (fun q => (V c main_v59 : S1x2.Idx → EReal) (ix2 0 q)) :=
  (dat1 V c).arrAt_eq_of_cover 10 (result V c) (fun t _ => flushed_eq V c t) cover

end Cert.KernelIdeal.Region1

end
-- ==== Proof.HostTerms.lean ====
/-
  The host-side values both programs share, named once.

  From the edge list `e` (row 0 the source nodes, row 1 the destinations): the gather indices (a negative source index
  wrapped by adding the node count), the scatter indices, each node's in-degree clamped below by one, the sum of the
  gathered neighbour rows per destination node (`segSum`), and the neighbour MEAN in its two spellings — the sum times the
  broadcast reciprocal of the degree (`meanMul`) and the sum divided by the broadcast degree (`meanDiv`).  The two are one
  function on the extended reals: the clamped degree is at least one, so it is never zero, and there a quotient is the
  product with the inverse while `1 / d` is that inverse (`meanMul_eq_meanDiv`).  Also the batch normalisation's scale
  `g / sqrt (v + ε)`.
-/
import proofs.«180387_j51161650430634_1_alg».proof.Proof.Gen.KernelIdeal
import proofs.«180387_j51161650430634_1_alg».proof.Proof.Spec
import Idealize.ShloMosaic.Lib.Pipeline.Value
import Idealize.ShloMosaic.Lib.ValueIdx
import Idealize.ShloMosaic.PureOps.Ideal.Laws
import Idealize.ShloMosaic.Lib.IdealHost

noncomputable section

namespace Cert.KernelIdeal.HostTerms

open Cert.KernelIdeal Cert.KernelIdeal.Gen Idealize.ShloMosaic Idealize.ShloMosaic.TcCoe
open Idealize.ShloMosaic.ValueIdx

/-- Row 0 of the edge list: the source node of each edge. -/
def srcRow (e : IVec S2x800000 32) : IVec S800000 32 :=
  shapeCast _ (extractStridedSlice S1x800000 ![0, 0] e slices_S2x800000_S1x800000_0_0) shapeCasts_S1x800000_S800000

/-- Row 1 of the edge list: the destination node of each edge. -/
def dstRow (e : IVec S2x800000 32) : IVec S800000 32 :=
  shapeCast _ (extractStridedSlice S1x800000 ![1, 0] e slices_S2x800000_S1x800000_1_0) shapeCasts_S1x800000_S800000

/-- The gather's start indices: the sources, a negative one moved up by the node count, as a column. -/
def srcIdx (e : IVec S2x800000 32) : IVec S800000x1 32 :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))

/-- The scatter's indices: the destinations as a column. -/
def dstIdx (e : IVec S2x800000 32) : IVec S800000x1 32 :=
  broadcastInDim S800000x1 ![0] bcast_S800000_S800000x1_0 (dstRow e)

/-- Each node's in-degree (ones scattered onto the destinations), clamped below by one. -/
def degree (e : IVec S2x800000 32) : FVec Ideal S50000 .f32 :=
  maximumf
    (Host.scatterAdd scatter_S50000_S800000x1_S800000_n_0_0_1
      (broadcastInDim S50000 ![] bcast_S_S50000 (constant (F := Ideal) S_ .f32 0x00000000#32)) (dstIdx e)
      (broadcastInDim S800000 ![] bcast_S_S800000 (constant (F := Ideal) S_ .f32 0x3F800000#32)))
    (broadcastInDim S50000 ![] bcast_S_S50000 (constant (F := Ideal) S_ .f32 0x3F800000#32))

/-- Per destination node, the sum of the rows of `h` gathered at the edges' sources. -/
def segSum (h : FVec Ideal S50000x128 .f32) (e : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32)) (dstIdx e)
    (Host.gather gather_S50000x128_S800000x1_S800000x128_1_0_n_n_0_1_1128 h (srcIdx e))

/-- The reciprocal of the clamped degree, as a column. -/
def invDeg (e : IVec S2x800000 32) : FVec Ideal S50000x1 .f32 :=
  broadcastInDim S50000x1 ![0] bcast_S50000_S50000x1_0
    (Host.divf (broadcastInDim S50000 ![] bcast_S_S50000 (constant (F := Ideal) S_ .f32 0x3F800000#32)) (degree e))

/-- The neighbour mean as the kernel's program spells it: the sum times the reciprocal degree. -/
def meanMul (h : FVec Ideal S50000x128 .f32) (e : IVec S2x800000 32) : FVec Ideal S50000x128 .f32 :=
  mulf (segSum h e) (broadcastInDim S50000x128 ![0, 1] bcast_S50000x1_S50000x128_0_1 (invDeg e))

/-- The neighbour mean as the reference spells it: the sum divided by the degree. -/
def meanDiv (h : FVec Ideal S50000x128 .f32) (e : IVec S2x800000 32) : FVec Ideal S50000x128 .f32 :=
  Host.divf (segSum h e)
    (broadcastInDim S50000x128 ![0, 1] bcast_S50000x1_S50000x128_0_1 (broadcastInDim S50000x1 ![0] bcast_S50000_S50000x1_0 (degree e)))

/-- The batch normalisation's per-feature scale `g / sqrt (v + ε)`. -/
def bnScale (g v : FVec Ideal S128 .f32) : FVec Ideal S128 .f32 :=
  Host.divf g (Host.sqrt (addf v (broadcastInDim S128 ![] bcast_S_S128 (constant (F := Ideal) S_ .f32 0x3727C5AC#32))))

/-! ## The two spellings of the mean are one function -/

/-- A vector broadcast to a column and the column across 128 lanes reads, at row `r` and any lane, the vector's entry `r`. -/
theorem col_bcast_apply (v : FVec Ideal S50000 .f32) (r : Fin 50000) (q : Fin 128) :
    broadcastInDim S50000x128 ![0, 1] bcast_S50000x1_S50000x128_0_1 (broadcastInDim S50000x1 ![0] bcast_S50000_S50000x1_0 v) (ix2 r q)
      = v (ix1 r) :=
  (broadcastInDim_apply ![0, 1] bcast_S50000x1_S50000x128_0_1 _ (ix2 r q) (ix2 r (0 : Fin 1))
      (fun a => match a with | ⟨0, _⟩ => rfl | ⟨1, _⟩ => rfl)).trans
    (broadcastInDim_apply ![0] bcast_S50000_S50000x1_0 v (ix2 r (0 : Fin 1)) (ix1 r)
      (fun a => match a with | ⟨0, _⟩ => rfl))

/-- On the extended reals, for a divisor clamped below by one: the product with `1 / d` is the quotient by `d`. Such a `d`
    is positive, hence not zero, where the quotient is the product with the inverse and `1 / d` is the inverse itself. -/
theorem mul_one_div_clamped (a c : EReal) :
    a * Ideal.div (Ideal.ofBits .f32 0x3F800000#32) (max c (Ideal.ofBits .f32 0x3F800000#32))
      = Ideal.div a (max c (Ideal.ofBits .f32 0x3F800000#32)) := by
  rw [Ideal.ofBits_one_f32]
  exact Ideal.mul_one_div (lt_of_lt_of_le zero_lt_one (le_max_right c 1)).ne'

/-- The sum times the broadcast reciprocal degree is the sum divided by the broadcast degree, entry by entry. -/
theorem meanMul_eq_meanDiv (h : FVec Ideal S50000x128 .f32) (e : IVec S2x800000 32) : meanMul h e = meanDiv h e := by
  funext i
  obtain ⟨r, q, rfl⟩ : ∃ (r : Fin 50000) (q : Fin 128), i = ix2 r q := ⟨i 0, i 1, eq_ix2 i⟩
  unfold meanMul meanDiv invDeg
  rw [mulf_apply, hostDivf_apply, col_bcast_apply, col_bcast_apply, hostDivf_apply]
  unfold degree
  rw [maximumf_apply, broadcastInDim_scalar_apply, constant_apply]
  exact mul_one_div_clamped _ _

/-! ## The result as one function of the eighteen arguments -/

/-- The first layer's output: the layer function of the neighbour mean of the node features (in the kernel program's
    spelling), the features themselves, the transposed first-layer weights and the first set of per-feature vectors. -/
def hidden1 (x : FVec Ideal S50000x128 .f32) (e : IVec S2x800000 32) (Wl1 : FVec Ideal S128x128 .f32) (bl1 : FVec Ideal S128 .f32)
    (Wr1 : FVec Ideal S128x128 .f32) (g1 b1 m1 v1 : FVec Ideal S128 .f32) : Sage.Mat 50000 128 :=
  Sage.layer (meanMul x e) x (transpose S128x128 [1, 0] Wl1 transposes_S128x128_S128x128_1_0)
    (transpose S128x128 [1, 0] Wr1 transposes_S128x128_S128x128_1_0)
    (fun q => bl1 (ix1 q)) (fun q => m1 (ix1 q)) (fun q => bnScale g1 v1 (ix1 q)) (fun q => b1 (ix1 q))

/-- The whole network: the second layer over the first layer's output and its neighbour mean, then the classifier head. -/
def result (x : FVec Ideal S50000x128 .f32) (e : IVec S2x800000 32) (Wl1 : FVec Ideal S128x128 .f32) (bl1 : FVec Ideal S128 .f32)
    (Wr1 Wl2 : FVec Ideal S128x128 .f32) (bl2 : FVec Ideal S128 .f32) (Wr2 : FVec Ideal S128x128 .f32)
    (g1 b1 m1 v1 g2 b2 m2 v2 : FVec Ideal S128 .f32) (Wlin : FVec Ideal S2x128 .f32) (blin : FVec Ideal S2 .f32) : Sage.Mat 50000 2 :=
  Sage.head
    (Sage.layer (meanMul (hidden1 x e Wl1 bl1 Wr1 g1 b1 m1 v1) e) (hidden1 x e Wl1 bl1 Wr1 g1 b1 m1 v1)
      (transpose S128x128 [1, 0] Wl2 transposes_S128x128_S128x128_1_0) (transpose S128x128 [1, 0] Wr2 transposes_S128x128_S128x128_1_0)
      (fun q => bl2 (ix1 q)) (fun q => m2 (ix1 q)) (fun q => bnScale g2 v2 (ix1 q)) (fun q => b2 (ix1 q)))
    (transpose S128x2 [1, 0] Wlin transposes_S2x128_S128x2_1_0) (fun q => blin (ix1 q))

end Cert.KernelIdeal.HostTerms

end
-- ==== Proof.KernelValue.lean ====
/-
  What the kernel program's result array holds after its run, as ONE function of the eighteen arguments.

  The run's last boundary contents are a fold through @main: the first stretch of host operations over the launch memory,
  region 0's write-backs, the second stretch, region 1's write-backs.  Read back to front: the result array is what region 1
  leaves (`Sage.head` of `Sage.layer` of the arrays it finds); those arrays are the second stretch's values — the neighbour
  mean of region 0's output, that output itself, transposed weights, per-feature vectors reshaped to rows —; region 0's output
  is `Sage.layer` of the first stretch's values, which are the same operations of the arguments.  Each host stretch is read
  off its list of operations; a per-feature vector reshaped to a `[1, n]` row reads at `(0, q)` the vector's entry `q`.
-/
import proofs.«180387_j51161650430634_1_alg».proof.Proof.Gen.KernelIdeal.Frame
import proofs.«180387_j51161650430634_1_alg».proof.Proof.Region0
import proofs.«180387_j51161650430634_1_alg».proof.Proof.Region1
import proofs.«180387_j51161650430634_1_alg».proof.Proof.HostTerms
import Idealize.ShloMosaic.Lib.StableHlo.Run
import Idealize.ShloMosaic.Lib.ValueLayout

set_option maxRecDepth 16384

noncomputable section

namespace Cert.KernelIdeal.KernelValue

open Cert.KernelIdeal Cert.KernelIdeal.Gen Cert.KernelIdeal.HostTerms
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## Congruences of the specification's two functions -/

theorem layer_congr {a a' x x' : Sage.Mat 50000 128} {wl wl' wr wr' : Sage.Mat 128 128} {bl bl' mean mean' sc sc' bs bs' : Fin 128 → EReal}
    (h1 : a = a') (h2 : x = x') (h3 : wl = wl') (h4 : wr = wr') (h5 : bl = bl') (h6 : mean = mean') (h7 : sc = sc') (h8 : bs = bs') :
    Sage.layer a x wl wr bl mean sc bs = Sage.layer a' x' wl' wr' bl' mean' sc' bs' := by
  subst h1 h2 h3 h4 h5 h6 h7 h8; rfl

theorem head_congr {h h' : Sage.Mat 50000 128} {w w' : Sage.Mat 128 2} {b b' : Fin 2 → EReal}
    (h1 : h = h') (h2 : w = w') (h3 : b = b') : Sage.head h w b = Sage.head h' w' b' := by
  subst h1 h2 h3; rfl

/-- A vector reshaped to one row reads, at `(0, q)`, the vector's entry `q`. -/
theorem row128 (v : FVec Ideal S128 .f32) :
    (fun q : Fin 128 => (shapeCast S1x128 v shapeCasts_S128_S1x128 : S1x128.Idx → EReal) (ix2 0 q)) = fun q => v (ix1 q) :=
  funext fun q => shapeCast_a_1a_apply v shapeCasts_S128_S1x128 0 q

theorem row2 (v : FVec Ideal S2 .f32) :
    (fun q : Fin 2 => (shapeCast S1x2 v shapeCasts_S2_S1x2 : S1x2.Idx → EReal) (ix2 0 q)) = fun q => v (ix1 q) :=
  funext fun q => shapeCast_a_1a_apply v shapeCasts_S2_S1x2 0 q

/-! ## The first stretch of host operations, read off the launch memory -/

section Stretch0
variable (c : Dev nD)

theorem W1_v24 : (W1 m ρ c (Proc.devRef .tc main_v24) : FVec Ideal S50000x128 .f32) = meanMul (m ((c : Thread nD τ).loc main_arg0)) (m ((c : Thread nD τ).loc main_arg1)) := by
  show StableHlo.after hostOps0 (W0 m ρ c) (Proc.devRef .tc main_v24) = _
  after_results_simp
  rfl

theorem W1_arg0 : (W1 m ρ c (Proc.devRef .tc main_arg0) : FVec Ideal S50000x128 .f32) = (m ((c : Thread nD τ).loc main_arg0)) := by
  show StableHlo.after hostOps0 (W0 m ρ c) (Proc.devRef .tc main_arg0) = _
  after_results_simp

theorem W1_v25 : (W1 m ρ c (Proc.devRef .tc main_v25) : FVec Ideal S128x128 .f32) = transpose S128x128 [1, 0] (m ((c : Thread nD τ).loc main_arg2)) transposes_S128x128_S128x128_1_0 := by
  show StableHlo.after hostOps0 (W0 m ρ c) (Proc.devRef .tc main_v25) = _
  after_results_simp

theorem W1_v26 : (W1 m ρ c (Proc.devRef .tc main_v26) : FVec Ideal S128x128 .f32) = transpose S128x128 [1, 0] (m ((c : Thread nD τ).loc main_arg4)) transposes_S128x128_S128x128_1_0 := by
  show StableHlo.after hostOps0 (W0 m ρ c) (Proc.devRef .tc main_v26) = _
  after_results_simp

theorem W1_v31 : (W1 m ρ c (Proc.devRef .tc main_v31) : FVec Ideal S1x128 .f32) = shapeCast S1x128 (m ((c : Thread nD τ).loc main_arg3)) shapeCasts_S128_S1x128 := by
  show StableHlo.after hostOps0 (W0 m ρ c) (Proc.devRef .tc main_v31) = _
  after_results_simp
  rfl

theorem W1_v32 : (W1 m ρ c (Proc.devRef .tc main_v32) : FVec Ideal S1x128 .f32) = shapeCast S1x128 (bnScale (m ((c : Thread nD τ).loc main_arg8)) (m ((c : Thread nD τ).loc main_arg11))) shapeCasts_S128_S1x128 := by
  show StableHlo.after hostOps0 (W0 m ρ c) (Proc.devRef .tc main_v32) = _
  after_results_simp
  rfl

theorem W1_v33 : (W1 m ρ c (Proc.devRef .tc main_v33) : FVec Ideal S1x128 .f32) = shapeCast S1x128 (m ((c : Thread nD τ).loc main_arg9)) shapeCasts_S128_S1x128 := by
  show StableHlo.after hostOps0 (W0 m ρ c) (Proc.devRef .tc main_v33) = _
  after_results_simp
  rfl

theorem W1_v34 : (W1 m ρ c (Proc.devRef .tc main_v34) : FVec Ideal S1x128 .f32) = shapeCast S1x128 (m ((c : Thread nD τ).loc main_arg10)) shapeCasts_S128_S1x128 := by
  show StableHlo.after hostOps0 (W0 m ρ c) (Proc.devRef .tc main_v34) = _
  after_results_simp
  rfl

theorem W1_v1 : (W1 m ρ c (Proc.devRef .tc main_v1) : IVec S800000 32) = srcRow (m ((c : Thread nD τ).loc main_arg1)) := by
  show StableHlo.after hostOps0 (W0 m ρ c) (Proc.devRef .tc main_v1) = _
  after_results_simp
  rfl

theorem W1_v3 : (W1 m ρ c (Proc.devRef .tc main_v3) : IVec S800000 32) = dstRow (m ((c : Thread nD τ).loc main_arg1)) := by
  show StableHlo.after hostOps0 (W0 m ρ c) (Proc.devRef .tc main_v3) = _
  after_results_simp
  rfl

theorem W1_v12 : (W1 m ρ c (Proc.devRef .tc main_v12) : FVec Ideal S50000x1 .f32) = invDeg (m ((c : Thread nD τ).loc main_arg1)) := by
  show StableHlo.after hostOps0 (W0 m ρ c) (Proc.devRef .tc main_v12) = _
  after_results_simp
  rfl

/-- A buffer no operation of the first stretch writes holds its launch contents. -/
theorem W1_arg (b : Ref sig .tc) (h : StableHlo.after hostOps0 (W0 m ρ c) (Proc.devRef .tc b) = W0 m ρ c (Proc.devRef .tc b)) :
    W1 m ρ c (Proc.devRef .tc b) = m ((c : Thread nD τ).loc b) := h

end Stretch0

/-! ## Region 0's output, and what the second stretch finds -/

section Stretch1
variable (c : Dev nD)

/-- Region 0 leaves the first layer's output in its result array. -/
theorem W2_v35 : (W2 m ρ c (Proc.devRef .tc main_v35) : Sage.Mat 50000 128) = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) := by
  refine (W2_arr m ρ c 8).trans ?_
  rw [Region0.arrAt_eq]
  unfold hidden1
  refine layer_congr (W1_v24 m ρ c) (W1_arg0 m ρ c) (W1_v25 m ρ c) (W1_v26 m ρ c) ?_ ?_ ?_ ?_
  · exact (congrArg (fun (v : FVec Ideal S1x128 .f32) => fun q : Fin 128 => (v : S1x128.Idx → EReal) (ix2 0 q)) (W1_v31 m ρ c)).trans (row128 _)
  · exact (congrArg (fun (v : FVec Ideal S1x128 .f32) => fun q : Fin 128 => (v : S1x128.Idx → EReal) (ix2 0 q)) (W1_v34 m ρ c)).trans (row128 _)
  · exact (congrArg (fun (v : FVec Ideal S1x128 .f32) => fun q : Fin 128 => (v : S1x128.Idx → EReal) (ix2 0 q)) (W1_v32 m ρ c)).trans (row128 _)
  · exact (congrArg (fun (v : FVec Ideal S1x128 .f32) => fun q : Fin 128 => (v : S1x128.Idx → EReal) (ix2 0 q)) (W1_v33 m ρ c)).trans (row128 _)

/-- A buffer that is none of region 0's arrays and that the first stretch does not write still holds its launch contents
    when the second stretch starts. -/
theorem W2_arg (b : Ref sig .tc) (hb : ∀ w, Pipeline.arrRef spec0 w ≠ b)
    (h : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h

theorem W2_v1 : (W2 m ρ c (Proc.devRef .tc main_v1) : IVec S800000 32) = srcRow (m ((c : Thread nD τ).loc main_arg1)) :=
  (W2_of_ne m ρ c main_v1 (by decide)).trans (W1_v1 m ρ c)
theorem W2_v3 : (W2 m ρ c (Proc.devRef .tc main_v3) : IVec S800000 32) = dstRow (m ((c : Thread nD τ).loc main_arg1)) :=
  (W2_of_ne m ρ c main_v3 (by decide)).trans (W1_v3 m ρ c)
theorem W2_v12 : (W2 m ρ c (Proc.devRef .tc main_v12) : FVec Ideal S50000x1 .f32) = invDeg (m ((c : Thread nD τ).loc main_arg1)) :=
  (W2_of_ne m ρ c main_v12 (by decide)).trans (W1_v12 m ρ c)

end Stretch1

/-! ## The second stretch of host operations, read off region 0's exit contents -/

section Stretch2
variable (c : Dev nD)

theorem W3_v35 : (W3 m ρ c (Proc.devRef .tc main_v35) : Sage.Mat 50000 128) = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) := by
  have h : W3 m ρ c (Proc.devRef .tc main_v35) = W2 m ρ c (Proc.devRef .tc main_v35) := by
    show StableHlo.after hostOps1 (W2 m ρ c) (Proc.devRef .tc main_v35) = _
    after_results_simp
  exact h.trans (W2_v35 m ρ c)

/-- The second neighbour mean: the same gather, scatter-add and reciprocal degree, of region 0's output. -/
theorem W3_v47 : (W3 m ρ c (Proc.devRef .tc main_v47) : FVec Ideal S50000x128 .f32) = meanMul (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))) (m ((c : Thread nD τ).loc main_arg1)) := by
  show StableHlo.after hostOps1 (W2 m ρ c) (Proc.devRef .tc main_v47) = _
  after_results_simp
  rw [W2_v35 m ρ c, W2_v1 m ρ c, W2_v3 m ρ c, W2_v12 m ρ c]
  rfl

theorem W3_v48 : (W3 m ρ c (Proc.devRef .tc main_v48) : FVec Ideal S128x128 .f32) = transpose S128x128 [1, 0] (m ((c : Thread nD τ).loc main_arg5)) transposes_S128x128_S128x128_1_0 := by
  show StableHlo.after hostOps1 (W2 m ρ c) (Proc.devRef .tc main_v48) = _
  after_results_simp
  rw [W2_arg m ρ c main_arg5 (by decide) (by after_results_simp)]

theorem W3_v49 : (W3 m ρ c (Proc.devRef .tc main_v49) : FVec Ideal S128x128 .f32) = transpose S128x128 [1, 0] (m ((c : Thread nD τ).loc main_arg7)) transposes_S128x128_S128x128_1_0 := by
  show StableHlo.after hostOps1 (W2 m ρ c) (Proc.devRef .tc main_v49) = _
  after_results_simp
  rw [W2_arg m ρ c main_arg7 (by decide) (by after_results_simp)]

theorem W3_v55 : (W3 m ρ c (Proc.devRef .tc main_v55) : FVec Ideal S1x128 .f32) = shapeCast S1x128 (m ((c : Thread nD τ).loc main_arg6)) shapeCasts_S128_S1x128 := by
  show StableHlo.after hostOps1 (W2 m ρ c) (Proc.devRef .tc main_v55) = _
  after_results_simp
  rw [W2_arg m ρ c main_arg6 (by decide) (by after_results_simp)]
  rfl

theorem W3_v56 : (W3 m ρ c (Proc.devRef .tc main_v56) : FVec Ideal S1x128 .f32) = shapeCast S1x128 (bnScale (m ((c : Thread nD τ).loc main_arg12)) (m ((c : Thread nD τ).loc main_arg15))) shapeCasts_S128_S1x128 := by
  show StableHlo.after hostOps1 (W2 m ρ c) (Proc.devRef .tc main_v56) = _
  after_results_simp
  rw [W2_arg m ρ c main_arg12 (by decide) (by after_results_simp), W2_arg m ρ c main_arg15 (by decide) (by after_results_simp)]
  rfl

theorem W3_v57 : (W3 m ρ c (Proc.devRef .tc main_v57) : FVec Ideal S1x128 .f32) = shapeCast S1x128 (m ((c : Thread nD τ).loc main_arg13)) shapeCasts_S128_S1x128 := by
  show StableHlo.after hostOps1 (W2 m ρ c) (Proc.devRef .tc main_v57) = _
  after_results_simp
  rw [W2_arg m ρ c main_arg13 (by decide) (by after_results_simp)]
  rfl

theorem W3_v58 : (W3 m ρ c (Proc.devRef .tc main_v58) : FVec Ideal S1x128 .f32) = shapeCast S1x128 (m ((c : Thread nD τ).loc main_arg14)) shapeCasts_S128_S1x128 := by
  show StableHlo.after hostOps1 (W2 m ρ c) (Proc.devRef .tc main_v58) = _
  after_results_simp
  rw [W2_arg m ρ c main_arg14 (by decide) (by after_results_simp)]
  rfl

theorem W3_v54 : (W3 m ρ c (Proc.devRef .tc main_v54) : FVec Ideal S128x2 .f32) = transpose S128x2 [1, 0] (m ((c : Thread nD τ).loc main_arg16)) transposes_S2x128_S128x2_1_0 := by
  show StableHlo.after hostOps1 (W2 m ρ c) (Proc.devRef .tc main_v54) = _
  after_results_simp
  rw [W2_arg m ρ c main_arg16 (by decide) (by after_results_simp)]

theorem W3_v59 : (W3 m ρ c (Proc.devRef .tc main_v59) : FVec Ideal S1x2 .f32) = shapeCast S1x2 (m ((c : Thread nD τ).loc main_arg17)) shapeCasts_S2_S1x2 := by
  show StableHlo.after hostOps1 (W2 m ρ c) (Proc.devRef .tc main_v59) = _
  after_results_simp
  rw [W2_arg m ρ c main_arg17 (by decide) (by after_results_simp)]
  rfl

end Stretch2

/-! ## The result array -/

/-- After the run the result array holds the whole network's function of the eighteen arguments. -/
theorem W4_result (c : Dev nD) : (W4 m ρ c (Proc.devRef .tc main_v60) : Sage.Mat 50000 2) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W4_arr m ρ c 10).trans ?_
  rw [Region1.arrAt_eq]
  unfold result
  refine head_congr (layer_congr (W3_v47 m ρ c) (W3_v35 m ρ c) (W3_v48 m ρ c) (W3_v49 m ρ c) ?_ ?_ ?_ ?_) (W3_v54 m ρ c) ?_
  · exact (congrArg (fun (v : FVec Ideal S1x128 .f32) => fun q : Fin 128 => (v : S1x128.Idx → EReal) (ix2 0 q)) (W3_v55 m ρ c)).trans (row128 _)
  · exact (congrArg (fun (v : FVec Ideal S1x128 .f32) => fun q : Fin 128 => (v : S1x128.Idx → EReal) (ix2 0 q)) (W3_v58 m ρ c)).trans (row128 _)
  · exact (congrArg (fun (v : FVec Ideal S1x128 .f32) => fun q : Fin 128 => (v : S1x128.Idx → EReal) (ix2 0 q)) (W3_v56 m ρ c)).trans (row128 _)
  · exact (congrArg (fun (v : FVec Ideal S1x128 .f32) => fun q : Fin 128 => (v : S1x128.Idx → EReal) (ix2 0 q)) (W3_v57 m ρ c)).trans (row128 _)
  · exact (congrArg (fun (v : FVec Ideal S1x2 .f32) => fun q : Fin 2 => (v : S1x2.Idx → EReal) (ix2 0 q)) (W3_v59 m ρ c)).trans (row2 _)

end Cert.KernelIdeal.KernelValue

end
-- ==== Proof.RefSide.lean ====
/- The reference's side: each of its three dense stages, read index by index through the generated read-at-an-index
   lemmas, is the specification's function of the stage's inputs — the two SAGE layers as `Sage.layer` of the
   mean-aggregated neighbours, the node features, the transposed weights and the per-feature vectors, the classifier as
   `Sage.head`.  The reference adds the bias before the second product; on the extended reals the three-term sum may be
   regrouped (addition is commutative and associative there). -/
import proofs.«180387_j51161650430634_1_alg».proof.Proof.Gen.ReferenceIdeal.Run
import proofs.«180387_j51161650430634_1_alg».proof.Proof.Gen.ReferenceIdeal.Read
import proofs.«180387_j51161650430634_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- The contents of a buffer of a given shape and element type, on the extended reals. -/
abbrev Arr (T : BufTy) : Type := T.Contents (Elt Ideal)

/-! ## The sum of the three terms, regrouped -/

/-- The reference adds the bias between the two products, the specification after them: the same extended real. -/
theorem layer_regroup (s b t m c d z : EReal) :
    max ((((s + b) + t) - m) * c + d) z = max ((((s + t) + b) - m) * c + d) z := by
  rw [add_right_comm]

/-! ## The first layer's operations at a node `r` and a feature `q` -/

/-- The neighbours' product: row `r` of the mean aggregation against column `q` of the transposed weights. -/
theorem agg1_dot_at (x0 : Arr ⟨S50000x128, .f32⟩) (x1 : Arr ⟨S2x800000, .i32⟩) (x2 : Arr ⟨S128x128, .f32⟩) (r : Fin 50000) (q : Fin 128) :
    val_main_v24 (F := Ideal) x0 x1 x2 (ix2 r q) = ∑ k : Fin 128, val_main_v22 (F := Ideal) x0 x1 (ix2 r k) * val_main_v23 (F := Ideal) x2 (ix2 k q) := by
  rw [val_main_v24_apply]
  refine Finset.sum_congr rfl fun k _ => ?_
  have el : lidx_main_v24 (ix2 r q) k = ix2 r k := funext fun a => match a with | ⟨0, _⟩ => rfl | ⟨1, _⟩ => rfl
  have er : ridx_main_v24 (ix2 r q) k = ix2 k q := funext fun a => match a with | ⟨0, _⟩ => rfl | ⟨1, _⟩ => rfl
  rw [el, er]

/-- The node's own product: row `r` of the features against column `q` of the second transposed weights. -/
theorem self1_dot_at (x0 : Arr ⟨S50000x128, .f32⟩) (x4 : Arr ⟨S128x128, .f32⟩) (r : Fin 50000) (q : Fin 128) :
    val_main_v29 (F := Ideal) x0 x4 (ix2 r q) = ∑ k : Fin 128, x0 (ix2 r k) * val_main_v28 (F := Ideal) x4 (ix2 k q) := by
  rw [val_main_v29_apply]
  refine Finset.sum_congr rfl fun k _ => ?_
  have el : lidx_main_v29 (ix2 r q) k = ix2 r k := funext fun a => match a with | ⟨0, _⟩ => rfl | ⟨1, _⟩ => rfl
  have er : ridx_main_v29 (ix2 r q) k = ix2 k q := funext fun a => match a with | ⟨0, _⟩ => rfl | ⟨1, _⟩ => rfl
  rw [el, er]

/-- The bias, broadcast along the nodes, reads the vector at the feature. -/
theorem bias1_at (x3 : Arr ⟨S128, .f32⟩) (r : Fin 50000) (q : Fin 128) :
    val_main_v26 (F := Ideal) x3 (ix2 r q) = x3 (ix1 q) := by
  rw [val_main_v26_apply, val_main_v25_apply]
  have e : idx_main_v25 (idx_main_v26 (ix2 r q)) = ix1 q := funext fun a => match a with | ⟨0, _⟩ => rfl
  rw [e]

/-- The running mean, broadcast along the nodes. -/
theorem mean1_at (x10 : Arr ⟨S128, .f32⟩) (r : Fin 50000) (q : Fin 128) :
    val_main_v32 (F := Ideal) x10 (ix2 r q) = x10 (ix1 q) := by
  rw [val_main_v32_apply, val_main_v31_apply]
  have e : idx_main_v31 (idx_main_v32 (ix2 r q)) = ix1 q := funext fun a => match a with | ⟨0, _⟩ => rfl
  rw [e]

/-- The normalisation's scale (the weight over the root of the variance plus epsilon), broadcast along the nodes. -/
theorem scale1_at (x8 x11 : Arr ⟨S128, .f32⟩) (r : Fin 50000) (q : Fin 128) :
    val_main_v39 (F := Ideal) x8 x11 (ix2 r q) = val_main_v37 (F := Ideal) x8 x11 (ix1 q) := by
  rw [val_main_v39_apply, val_main_v38_apply]
  have e : idx_main_v38 (idx_main_v39 (ix2 r q)) = ix1 q := funext fun a => match a with | ⟨0, _⟩ => rfl
  rw [e]

/-- The normalisation's shift, broadcast along the nodes. -/
theorem shift1_at (x9 : Arr ⟨S128, .f32⟩) (r : Fin 50000) (q : Fin 128) :
    val_main_v42 (F := Ideal) x9 (ix2 r q) = x9 (ix1 q) := by
  rw [val_main_v42_apply, val_main_v41_apply]
  have e : idx_main_v41 (idx_main_v42 (ix2 r q)) = ix1 q := funext fun a => match a with | ⟨0, _⟩ => rfl
  rw [e]

/-- The first rectifier's zero, kept as the float word. -/
theorem zero1_at (r : Fin 50000) (q : Fin 128) :
    val_main_call0_v0 (F := Ideal) (ix2 r q) = Ideal.ofBits .f32 0x00000000#32 :=
  (val_main_call0_v0_apply (F := Ideal) (ix2 r q)).trans (val_main_call0_cst_apply (F := Ideal) _)

/-- The first layer's output (after the rectifier) is the layer function of the mean-aggregated features, the node
    features, the two transposed weight matrices, the bias, the running mean, the normalisation's scale and its shift. -/
theorem layer1_eq (x0 : Arr ⟨S50000x128, .f32⟩) (x1 : Arr ⟨S2x800000, .i32⟩) (x2 : Arr ⟨S128x128, .f32⟩) (x3 : Arr ⟨S128, .f32⟩)
    (x4 : Arr ⟨S128x128, .f32⟩) (x8 x9 x10 x11 : Arr ⟨S128, .f32⟩) :
    val_main_v44 (F := Ideal) x0 x1 x2 x3 x4 x8 x9 x10 x11
      = Sage.layer (val_main_v22 (F := Ideal) x0 x1) x0 (val_main_v23 (F := Ideal) x2) (val_main_v28 (F := Ideal) x4)
          (fun q => x3 (ix1 q)) (fun q => x10 (ix1 q)) (fun q => val_main_v37 (F := Ideal) x8 x11 (ix1 q)) (fun q => x9 (ix1 q)) := by
  funext i
  obtain ⟨r, q, rfl⟩ : ∃ (r : Fin 50000) (q : Fin 128), i = ix2 r q := ⟨i 0, i 1, eq_ix2 i⟩
  rw [Sage.layer_apply, val_main_v44_apply, val_main_v43_apply, val_main_v40_apply, val_main_v33_apply, val_main_v30_apply,
    val_main_v27_apply, agg1_dot_at, self1_dot_at, bias1_at, mean1_at, scale1_at, shift1_at, zero1_at]
  simp only [Ideal.maximumf_def, Ideal.addf_def, Ideal.subf_def, Ideal.mulf_def]
  exact layer_regroup _ _ _ _ _ _ _

/-! ## The second layer's operations at a node `r` and a feature `q` -/

/-- The neighbours' product of the second layer: row `r` of the second mean aggregation against column `q` of its transposed weights. -/
theorem agg2_dot_at (x0 : Arr ⟨S50000x128, .f32⟩) (x1 : Arr ⟨S2x800000, .i32⟩) (x2 : Arr ⟨S128x128, .f32⟩) (x3 : Arr ⟨S128, .f32⟩) (x4 x5 : Arr ⟨S128x128, .f32⟩) (x8 x9 x10 x11 : Arr ⟨S128, .f32⟩) (r : Fin 50000) (q : Fin 128) :
    val_main_v65 (F := Ideal) x0 x1 x2 x3 x4 x5 x8 x9 x10 x11 (ix2 r q) = ∑ k : Fin 128, val_main_v63 (F := Ideal) x0 x1 x2 x3 x4 x8 x9 x10 x11 (ix2 r k) * val_main_v64 (F := Ideal) x5 (ix2 k q) := by
  rw [val_main_v65_apply]
  refine Finset.sum_congr rfl fun k _ => ?_
  have el : lidx_main_v65 (ix2 r q) k = ix2 r k := funext fun a => match a with | ⟨0, _⟩ => rfl | ⟨1, _⟩ => rfl
  have er : ridx_main_v65 (ix2 r q) k = ix2 k q := funext fun a => match a with | ⟨0, _⟩ => rfl | ⟨1, _⟩ => rfl
  rw [el, er]

/-- The node's own product of the second layer: row `r` of the first layer's output against column `q` of the second transposed weights. -/
theorem self2_dot_at (x0 : Arr ⟨S50000x128, .f32⟩) (x1 : Arr ⟨S2x800000, .i32⟩) (x2 : Arr ⟨S128x128, .f32⟩) (x3 : Arr ⟨S128, .f32⟩) (x4 x7 : Arr ⟨S128x128, .f32⟩) (x8 x9 x10 x11 : Arr ⟨S128, .f32⟩) (r : Fin 50000) (q : Fin 128) :
    val_main_v70 (F := Ideal) x0 x1 x2 x3 x4 x7 x8 x9 x10 x11 (ix2 r q) = ∑ k : Fin 128, val_main_v44 (F := Ideal) x0 x1 x2 x3 x4 x8 x9 x10 x11 (ix2 r k) * val_main_v69 (F := Ideal) x7 (ix2 k q) := by
  rw [val_main_v70_apply]
  refine Finset.sum_congr rfl fun k _ => ?_
  have el : lidx_main_v70 (ix2 r q) k = ix2 r k := funext fun a => match a with | ⟨0, _⟩ => rfl | ⟨1, _⟩ => rfl
  have er : ridx_main_v70 (ix2 r q) k = ix2 k q := funext fun a => match a with | ⟨0, _⟩ => rfl | ⟨1, _⟩ => rfl
  rw [el, er]

/-- The second bias, broadcast along the nodes. -/
theorem bias2_at (x6 : Arr ⟨S128, .f32⟩) (r : Fin 50000) (q : Fin 128) :
    val_main_v67 (F := Ideal) x6 (ix2 r q) = x6 (ix1 q) := by
  rw [val_main_v67_apply, val_main_v66_apply]
  have e : idx_main_v66 (idx_main_v67 (ix2 r q)) = ix1 q := funext fun a => match a with | ⟨0, _⟩ => rfl
  rw [e]

/-- The second running mean, broadcast along the nodes. -/
theorem mean2_at (x14 : Arr ⟨S128, .f32⟩) (r : Fin 50000) (q : Fin 128) :
    val_main_v73 (F := Ideal) x14 (ix2 r q) = x14 (ix1 q) := by
  rw [val_main_v73_apply, val_main_v72_apply]
  have e : idx_main_v72 (idx_main_v73 (ix2 r q)) = ix1 q := funext fun a => match a with | ⟨0, _⟩ => rfl
  rw [e]

/-- The second normalisation's scale, broadcast along the nodes. -/
theorem scale2_at (x12 x15 : Arr ⟨S128, .f32⟩) (r : Fin 50000) (q : Fin 128) :
    val_main_v80 (F := Ideal) x12 x15 (ix2 r q) = val_main_v78 (F := Ideal) x12 x15 (ix1 q) := by
  rw [val_main_v80_apply, val_main_v79_apply]
  have e : idx_main_v79 (idx_main_v80 (ix2 r q)) = ix1 q := funext fun a => match a with | ⟨0, _⟩ => rfl
  rw [e]

/-- The second normalisation's shift, broadcast along the nodes. -/
theorem shift2_at (x13 : Arr ⟨S128, .f32⟩) (r : Fin 50000) (q : Fin 128) :
    val_main_v83 (F := Ideal) x13 (ix2 r q) = x13 (ix1 q) := by
  rw [val_main_v83_apply, val_main_v82_apply]
  have e : idx_main_v82 (idx_main_v83 (ix2 r q)) = ix1 q := funext fun a => match a with | ⟨0, _⟩ => rfl
  rw [e]

/-- The second rectifier's zero, kept as the float word. -/
theorem zero2_at (r : Fin 50000) (q : Fin 128) :
    val_main_call1_v0 (F := Ideal) (ix2 r q) = Ideal.ofBits .f32 0x00000000#32 :=
  (val_main_call1_v0_apply (F := Ideal) (ix2 r q)).trans (val_main_call1_cst_apply (F := Ideal) _)

/-- The second layer's output is the layer function of the second mean aggregation, the first layer's output, the second
    pair of transposed weights and the second set of per-feature vectors. -/
theorem layer2_eq (x0 : Arr ⟨S50000x128, .f32⟩) (x1 : Arr ⟨S2x800000, .i32⟩) (x2 : Arr ⟨S128x128, .f32⟩) (x3 : Arr ⟨S128, .f32⟩)
    (x4 x5 : Arr ⟨S128x128, .f32⟩) (x6 : Arr ⟨S128, .f32⟩) (x7 : Arr ⟨S128x128, .f32⟩) (x8 x9 x10 x11 x12 x13 x14 x15 : Arr ⟨S128, .f32⟩) :
    val_main_v85 (F := Ideal) x0 x1 x2 x3 x4 x5 x6 x7 x8 x9 x10 x11 x12 x13 x14 x15
      = Sage.layer (val_main_v63 (F := Ideal) x0 x1 x2 x3 x4 x8 x9 x10 x11) (val_main_v44 (F := Ideal) x0 x1 x2 x3 x4 x8 x9 x10 x11)
          (val_main_v64 (F := Ideal) x5) (val_main_v69 (F := Ideal) x7)
          (fun q => x6 (ix1 q)) (fun q => x14 (ix1 q)) (fun q => val_main_v78 (F := Ideal) x12 x15 (ix1 q)) (fun q => x13 (ix1 q)) := by
  funext i
  obtain ⟨r, q, rfl⟩ : ∃ (r : Fin 50000) (q : Fin 128), i = ix2 r q := ⟨i 0, i 1, eq_ix2 i⟩
  rw [Sage.layer_apply, val_main_v85_apply, val_main_v84_apply, val_main_v81_apply, val_main_v74_apply, val_main_v71_apply,
    val_main_v68_apply, agg2_dot_at, self2_dot_at, bias2_at, mean2_at, scale2_at, shift2_at, zero2_at]
  simp only [Ideal.maximumf_def, Ideal.addf_def, Ideal.subf_def, Ideal.mulf_def]
  exact layer_regroup _ _ _ _ _ _ _

/-! ## The classifier's operations at a node `r` and a class `q` -/

/-- The classifier's product: row `r` of the second layer's output against column `q` of the transposed 2 × 128 matrix. -/
theorem head_dot_at (x0 : Arr ⟨S50000x128, .f32⟩) (x1 : Arr ⟨S2x800000, .i32⟩) (x2 : Arr ⟨S128x128, .f32⟩) (x3 : Arr ⟨S128, .f32⟩)
    (x4 x5 : Arr ⟨S128x128, .f32⟩) (x6 : Arr ⟨S128, .f32⟩) (x7 : Arr ⟨S128x128, .f32⟩) (x8 x9 x10 x11 x12 x13 x14 x15 : Arr ⟨S128, .f32⟩)
    (x16 : Arr ⟨S2x128, .f32⟩) (r : Fin 50000) (q : Fin 2) :
    val_main_v87 (F := Ideal) x0 x1 x2 x3 x4 x5 x6 x7 x8 x9 x10 x11 x12 x13 x14 x15 x16 (ix2 r q) = ∑ k : Fin 128, val_main_v85 (F := Ideal) x0 x1 x2 x3 x4 x5 x6 x7 x8 x9 x10 x11 x12 x13 x14 x15 (ix2 r k) * val_main_v86 (F := Ideal) x16 (ix2 k q) := by
  rw [val_main_v87_apply]
  refine Finset.sum_congr rfl fun k _ => ?_
  have el : lidx_main_v87 (ix2 r q) k = ix2 r k := funext fun a => match a with | ⟨0, _⟩ => rfl | ⟨1, _⟩ => rfl
  have er : ridx_main_v87 (ix2 r q) k = ix2 k q := funext fun a => match a with | ⟨0, _⟩ => rfl | ⟨1, _⟩ => rfl
  rw [el, er]

/-- The classifier's bias, broadcast along the nodes. -/
theorem head_bias_at (x17 : Arr ⟨S2, .f32⟩) (r : Fin 50000) (q : Fin 2) :
    val_main_v89 (F := Ideal) x17 (ix2 r q) = x17 (ix1 q) := by
  rw [val_main_v89_apply, val_main_v88_apply]
  have e : idx_main_v88 (idx_main_v89 (ix2 r q)) = ix1 q := funext fun a => match a with | ⟨0, _⟩ => rfl
  rw [e]

/-- The result is the classifier head of the second layer's output, the transposed 2 × 128 matrix and the bias. -/
theorem head_eq (x0 : Arr ⟨S50000x128, .f32⟩) (x1 : Arr ⟨S2x800000, .i32⟩) (x2 : Arr ⟨S128x128, .f32⟩) (x3 : Arr ⟨S128, .f32⟩)
    (x4 x5 : Arr ⟨S128x128, .f32⟩) (x6 : Arr ⟨S128, .f32⟩) (x7 : Arr ⟨S128x128, .f32⟩) (x8 x9 x10 x11 x12 x13 x14 x15 : Arr ⟨S128, .f32⟩)
    (x16 : Arr ⟨S2x128, .f32⟩) (x17 : Arr ⟨S2, .f32⟩) :
    val_main_v90 (F := Ideal) x0 x1 x2 x3 x4 x5 x6 x7 x8 x9 x10 x11 x12 x13 x14 x15 x16 x17
      = Sage.head (val_main_v85 (F := Ideal) x0 x1 x2 x3 x4 x5 x6 x7 x8 x9 x10 x11 x12 x13 x14 x15) (val_main_v86 (F := Ideal) x16)
          (fun q => x17 (ix1 q)) := by
  funext i
  obtain ⟨r, q, rfl⟩ : ∃ (r : Fin 50000) (q : Fin 2), i = ix2 r q := ⟨i 0, i 1, eq_ix2 i⟩
  rw [Sage.head_apply, val_main_v90_apply, head_dot_at, head_bias_at]
  exact Ideal.addf_def _ _

end Cert.ReferenceIdeal.RefValue

end
-- ==== Proof.Bridge.lean ====
/-
  The reference's result is the kernel program's result, as functions of the eighteen arguments.

  The reference's three dense stages are the specification's functions of their inputs; its neighbour means are quotients of
  the same gather / scatter-add sums by the same clamped degrees, which are the kernel program's products with the reciprocal
  degree (the clamped degree is never zero); its transposed weights and its normalisation scales are the same host operations
  of the same arguments.  So the two results are one term.
-/
import proofs.«180387_j51161650430634_1_alg».proof.Proof.RefSide
import proofs.«180387_j51161650430634_1_alg».proof.Proof.HostTerms

noncomputable section

namespace Cert.Bridge

open Idealize.ShloMosaic Idealize.ShloMosaic.TcCoe Idealize.ShloMosaic.ValueIdx
open Cert.KernelIdeal.HostTerms
open Cert.ReferenceIdeal.Read Cert.ReferenceIdeal.RefValue

/-- The reference's first neighbour mean is the quotient spelling of the mean of the node features. -/
theorem mean1_eq (x0 : (⟨Cert.ReferenceIdeal.S50000x128, .f32⟩ : BufTy).Contents (Elt Ideal)) (x1 : (⟨Cert.ReferenceIdeal.S2x800000, .i32⟩ : BufTy).Contents (Elt Ideal)) :
    val_main_v22 (F := Ideal) x0 x1 = meanDiv x0 x1 := rfl

/-- The reference's second neighbour mean is the quotient spelling of the mean of the first layer's output. -/
theorem mean2_eq (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x8 x9 x10 x11 : (⟨Cert.ReferenceIdeal.S128, .f32⟩ : BufTy).Contents (Elt Ideal)) :
    val_main_v63 (F := Ideal) x0 x1 x2 x3 x4 x8 x9 x10 x11 = meanDiv (val_main_v44 (F := Ideal) x0 x1 x2 x3 x4 x8 x9 x10 x11) x1 := rfl

/-- The reference's result is the whole network's function of the arguments, in the kernel program's spelling. -/
theorem ref_result (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal))
    (x4 x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal))
    (x8 x9 x10 x11 x12 x13 x14 x15 : (⟨Cert.ReferenceIdeal.S128, .f32⟩ : BufTy).Contents (Elt Ideal)) (x16 : (⟨Cert.ReferenceIdeal.S2x128, .f32⟩ : BufTy).Contents (Elt Ideal)) (x17 : (⟨Cert.ReferenceIdeal.S2, .f32⟩ : BufTy).Contents (Elt Ideal)) :
    val_main_v90 (F := Ideal) x0 x1 x2 x3 x4 x5 x6 x7 x8 x9 x10 x11 x12 x13 x14 x15 x16 x17
      = result x0 x1 x2 x3 x4 x5 x6 x7 x8 x9 x10 x11 x12 x13 x14 x15 x16 x17 := by
  rw [head_eq, layer2_eq, mean2_eq, layer1_eq, mean1_eq, ← meanMul_eq_meanDiv, ← meanMul_eq_meanDiv]
  rfl

end Cert.Bridge

end
-- ==== Proof.lean ====
/-
  The certificate of the GraphSAGE classifier: two layers (neighbour mean, two 128 × 128 products, bias, evaluation-mode
  batch normalisation, rectifier) and a linear head, the dense part of each layer a pallas_call over 25 blocks of 2000 nodes.

  The three frames are the generated ones (the reference's is its generated run with the result dropped).  The idealization
  rewrote nothing, so `preserves` has no conjunct.  The value claim: the kernel program's run leaves in its result array the
  last boundary's contents, which read back through both regions and both stretches of host operations are ONE function
  `result` of the eighteen arguments (the specification's layer and head over the shared gather / scatter-add terms); the
  reference's run leaves its composed term, whose three dense stages are the same specification functions and whose
  neighbour means — quotients by the clamped degree — are the kernel program's products with the reciprocal degree, the
  clamped degree being at least one and so never zero.  With the arguments agreeing the two results are the same term.
-/
import proofs.«180387_j51161650430634_1_alg».proof.Defs
import proofs.«180387_j51161650430634_1_alg».proof.Proof.Gen.Kernel
import proofs.«180387_j51161650430634_1_alg».proof.Proof.Gen.Kernel.Skeleton
import proofs.«180387_j51161650430634_1_alg».proof.Proof.Gen.Kernel.Launch
import proofs.«180387_j51161650430634_1_alg».proof.Proof.Gen.Kernel.Points
import proofs.«180387_j51161650430634_1_alg».proof.Proof.Gen.Kernel.Frame
import proofs.«180387_j51161650430634_1_alg».proof.Proof.Gen.KernelIdeal
import proofs.«180387_j51161650430634_1_alg».proof.Proof.Gen.KernelIdeal.Skeleton
import proofs.«180387_j51161650430634_1_alg».proof.Proof.Gen.KernelIdeal.Launch
import proofs.«180387_j51161650430634_1_alg».proof.Proof.Gen.KernelIdeal.Points
import proofs.«180387_j51161650430634_1_alg».proof.Proof.Gen.KernelIdeal.Frame
import proofs.«180387_j51161650430634_1_alg».proof.Proof.Gen.ReferenceIdeal
import proofs.«180387_j51161650430634_1_alg».proof.Proof.Gen.ReferenceIdeal.Run
import proofs.«180387_j51161650430634_1_alg».proof.Proof.Gen.ReferenceIdeal.Read
import proofs.«180387_j51161650430634_1_alg».proof.Proof.Gen.Pre_finite_inputs
import proofs.«180387_j51161650430634_1_alg».proof.Proof.NamedRun
import proofs.«180387_j51161650430634_1_alg».proof.Proof.KernelValue
import proofs.«180387_j51161650430634_1_alg».proof.Proof.Bridge
import Idealize.ShloMosaic.Adequacy
import Idealize.ShloMosaic.Init

noncomputable section

namespace Cert.Proof

open Idealize.ShloMosaic Idealize.ShloMosaic.TcCoe Idealize.SL.Sem

/-- The reference terminates with its arguments unchanged: its generated run, the result dropped. -/
theorem frame_reference : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- Both idealized programs, from memories agreeing on the arguments, end with the same result array: the whole network's
    function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono (fun r h c => ⟨(h c).1.trans (Cert.KernelIdeal.KernelValue.W4_result m ρ c), (h c).2⟩)
    (Cert.KernelIdeal.NamedRun.run_named (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
  exact Cert.Bridge.ref_result _ _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
